-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x1024 : Shape := ⟨2, ![512, 1024]⟩
abbrev S1024x64x16 : Shape := ⟨3, ![1024, 64, 16]⟩
abbrev S_ : Shape := ⟨0, ![]⟩

class Facts : Prop where
  bcast_S_S512x1024 : S_.BroadcastsInDim S512x1024 (![] : Fin 0 → Fin S512x1024.rank)
  reducesTo_S512x1024_S_d0_1 : S512x1024.ReducesTo [0, 1] S_
  h_S_ : 0 < S_.numel
  bcast_S_S1024x64x16 : S_.BroadcastsInDim S1024x64x16 (![] : Fin 0 → Fin S1024x64x16.rank)
  reducesTo_S1024x64x16_S_d0_1_2 : S1024x64x16.ReducesTo [0, 1, 2] S_

variable [Facts]

def fn {F : FTy → Type} [FloatOps F] (main_arg0 : FVec F S512x1024 .f32) (main_arg1 : FVec F S1024x64x16 .f32) : IVec S_ 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_c : IVec S_ 1 := constantI S_ 1 1#1
  let main_v3 : IVec S_ 1 := (fun x v => Host.reduce IntOp.andi x v reducesTo_S512x1024_S_d0_1 h_S_) main_v2 main_c
  let main_v4 : FVec F S1024x64x16 .f32 := Host.absf main_arg1
  let main_cst_0 : FVec F S_ .f32 := constant S_ .f32 0x7F800000#32
  let main_v5 : FVec F S1024x64x16 .f32 := broadcastInDim S1024x64x16 ![] bcast_S_S1024x64x16 main_cst_0
  let main_v6 : IVec S1024x64x16 1 := cmpf .olt main_v4 main_v5
  let main_c_1 : IVec S_ 1 := constantI S_ 1 1#1
  let main_v7 : IVec S_ 1 := (fun x v => Host.reduce IntOp.andi x v reducesTo_S1024x64x16_S_d0_1_2 h_S_) main_v6 main_c_1
  let main_v8 : IVec S_ 1 := andi main_v3 main_v7
  main_v8
-- ==== Kernel.lean ====
abbrev S512x1024 : Shape := ⟨2, ![512, 1024]⟩
abbrev S1024x64x16 : Shape := ⟨3, ![1024, 64, 16]⟩
abbrev S1024x1024 : Shape := ⟨2, ![1024, 1024]⟩
abbrev S128x1024 : Shape := ⟨2, ![128, 1024]⟩
abbrev S512x64x16 : Shape := ⟨3, ![512, 64, 16]⟩
abbrev S64x16x512 : Shape := ⟨3, ![64, 16, 512]⟩
abbrev S64x1x512 : Shape := ⟨3, ![64, 1, 512]⟩
abbrev S1x16x512 : Shape := ⟨3, ![1, 16, 512]⟩
abbrev S1x1x512 : Shape := ⟨3, ![1, 1, 512]⟩
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S64x512 : Shape := ⟨2, ![64, 512]⟩
abbrev S512x64 : Shape := ⟨2, ![512, 64]⟩
abbrev S512x1088 : Shape := ⟨2, ![512, 1088]⟩

abbrev nBuf : Space → Nat
  | .hbm => 12
  | .vmem => 9
  | .smem => 0
  | _ => 0

abbrev bufTy : (tb : Table) → Fin (tcTables nBuf tb) → BufTy
  | .hbm, ⟨0, _⟩ => ⟨S512x1024, .f32⟩
  | .hbm, ⟨1, _⟩ => ⟨S1024x64x16, .f32⟩
  | .hbm, ⟨2, _⟩ => ⟨S1024x1024, .f32⟩
  | .hbm, ⟨3, _⟩ => ⟨S512x1024, .bf16⟩
  | .hbm, ⟨4, _⟩ => ⟨S1024x1024, .bf16⟩
  | .hbm, ⟨5, _⟩ => ⟨S512x1024, .f32⟩
  | .hbm, ⟨6, _⟩ => ⟨S512x64x16, .f32⟩
  | .hbm, ⟨7, _⟩ => ⟨S64x16x512, .f32⟩
  | .hbm, ⟨8, _⟩ => ⟨S64x1x512, .f32⟩
  | .hbm, ⟨9, _⟩ => ⟨S64x512, .f32⟩
  | .hbm, ⟨10, _⟩ => ⟨S512x64, .f32⟩
  | .hbm, ⟨11, _⟩ => ⟨S512x1088, .f32⟩
  | .local _ .vmem, ⟨0, _⟩ => ⟨S128x1024, .bf16⟩
  | .local _ .vmem, ⟨1, _⟩ => ⟨S128x1024, .bf16⟩
  | .local _ .vmem, ⟨2, _⟩ => ⟨S1024x1024, .bf16⟩
  | .local _ .vmem, ⟨3, _⟩ => ⟨S128x1024, .f32⟩
  | .local _ .vmem, ⟨4, _⟩ => ⟨S128x1024, .f32⟩
  | .local _ .vmem, ⟨5, _⟩ => ⟨S1x16x512, .f32⟩
  | .local _ .vmem, ⟨6, _⟩ => ⟨S1x16x512, .f32⟩
  | .local _ .vmem, ⟨7, _⟩ => ⟨S1x1x512, .f32⟩
  | .local _ .vmem, ⟨8, _⟩ => ⟨S1x1x512, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x16x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  shapeCasts_S1024x64x16_S1024x1024 : S1024x64x16.ShapeCasts S1024x1024
  bitsLt_bf16_f32 : FTy.bits .bf16 < FTy.bits .f32
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S512x1024_S512x64x16 : S512x1024.ShapeCasts S512x64x16
  transposes_S512x64x16_S64x16x512_1_2_0 : S512x64x16.Transposes [1, 2, 0] S64x16x512
  inb_S1x16x512_S1x1x512_0_0_0 : ∀ a, (![0, 0, 0] : Fin 3 → Nat) a + S1x1x512.size a ≤ S1x16x512.size a
  h_S1x1x512 : 0 < S1x1x512.numel
  shapeCasts_S1x1x512_S512 : S1x1x512.ShapeCasts S512
  shapeCasts_S512_S512x1 : S512.ShapeCasts S512x1
  shapeCasts_S512_S1x512 : S512.ShapeCasts S1x512
  broadcasts_S512x1_S512x512 : S512x1.Broadcasts S512x512
  broadcasts_S1x512_S512x512 : S1x512.Broadcasts S512x512
  inb_S1x16x512_S1x1x512_0_1_0 : ∀ a, (![0, 1, 0] : Fin 3 → Nat) a + S1x1x512.size a ≤ S1x16x512.size a
  inb_S1x16x512_S1x1x512_0_2_0 : ∀ a, (![0, 2, 0] : Fin 3 → Nat) a + S1x1x512.size a ≤ S1x16x512.size a
  inb_S1x16x512_S1x1x512_0_3_0 : ∀ a, (![0, 3, 0] : Fin 3 → Nat) a + S1x1x512.size a ≤ S1x16x512.size a
  inb_S1x16x512_S1x1x512_0_4_0 : ∀ a, (![0, 4, 0] : Fin 3 → Nat) a + S1x1x512.size a ≤ S1x16x512.size a
  inb_S1x16x512_S1x1x512_0_5_0 : ∀ a, (![0, 5, 0] : Fin 3 → Nat) a + S1x1x512.size a ≤ S1x16x512.size a
  inb_S1x16x512_S1x1x512_0_6_0 : ∀ a, (![0, 6, 0] : Fin 3 → Nat) a + S1x1x512.size a ≤ S1x16x512.size a
  inb_S1x16x512_S1x1x512_0_7_0 : ∀ a, (![0, 7, 0] : Fin 3 → Nat) a + S1x1x512.size a ≤ S1x16x512.size a
  inb_S1x16x512_S1x1x512_0_8_0 : ∀ a, (![0, 8, 0] : Fin 3 → Nat) a + S1x1x512.size a ≤ S1x16x512.size a
  inb_S1x16x512_S1x1x512_0_9_0 : ∀ a, (![0, 9, 0] : Fin 3 → Nat) a + S1x1x512.size a ≤ S1x16x512.size a
  inb_S1x16x512_S1x1x512_0_10_0 : ∀ a, (![0, 10, 0] : Fin 3 → Nat) a + S1x1x512.size a ≤ S1x16x512.size a
  inb_S1x16x512_S1x1x512_0_11_0 : ∀ a, (![0, 11, 0] : Fin 3 → Nat) a + S1x1x512.size a ≤ S1x16x512.size a
  inb_S1x16x512_S1x1x512_0_12_0 : ∀ a, (![0, 12, 0] : Fin 3 → Nat) a + S1x1x512.size a ≤ S1x16x512.size a
  inb_S1x16x512_S1x1x512_0_13_0 : ∀ a, (![0, 13, 0] : Fin 3 → Nat) a + S1x1x512.size a ≤ S1x16x512.size a
  inb_S1x16x512_S1x1x512_0_14_0 : ∀ a, (![0, 14, 0] : Fin 3 → Nat) a + S1x1x512.size a ≤ S1x16x512.size a
  inb_S1x16x512_S1x1x512_0_15_0 : ∀ a, (![0, 15, 0] : Fin 3 → Nat) a + S1x1x512.size a ≤ S1x16x512.size a
  reduces_S512x512_S512 : S512x512.Reduces [1] S512
  inb_S1x1x512_S1x1x512_0_0_0 : ∀ a, (![0, 0, 0] : Fin 3 → Nat) a + S1x1x512.size a ≤ S1x1x512.size a
  shapeCasts_S1x1x512_S1x512 : S1x1x512.ShapeCasts S1x512
  shapeCasts_S1x512_S1x1x512 : S1x512.ShapeCasts S1x1x512
  shapeCasts_S64x1x512_S64x512 : S64x1x512.ShapeCasts S64x512
  transposes_S64x512_S512x64_1_0 : S64x512.Transposes [1, 0] S512x64
  concatenates_S512x1024_S512x64_S512x1088_d1 : Shape.Concatenates [S512x1024, S512x64] S512x1088 1
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S512x1024.size a
  hwx0_0 : ∀ i : grid0.Coords, EltTy.bits .bf16 = 32 ∨ (Rect.block (s := S512x1024) S128x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S512x1024.size a
  hwx0_2 : ∀ i : grid0.Coords, EltTy.bits .f32 = 32 ∨ (Rect.block (s := S512x1024) S128x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x16x512.size a ≤ S64x16x512.size a
  hwx1_0 : ∀ i : grid1.Coords, EltTy.bits .f32 = 32 ∨ (Rect.block (s := S64x16x512) S1x16x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x512.size a ≤ S64x1x512.size a
  hwx1_1 : ∀ i : grid1.Coords, EltTy.bits .f32 = 32 ∨ (Rect.block (s := S64x1x512) S1x1x512.size (cc1_transform_1 i) (hinb1_1 i)).WholeWords (EltTy.packing .f32)

variable [Facts₀]

def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_v1) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S1x16x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x1x512.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S512x1024 : Shape := ⟨2, ![512, 1024]⟩
abbrev S1024x64x16 : Shape := ⟨3, ![1024, 64, 16]⟩
abbrev S1024x1024 : Shape := ⟨2, ![1024, 1024]⟩
abbrev S512x64x16 : Shape := ⟨3, ![512, 64, 16]⟩
abbrev S512x1x64x16 : Shape := ⟨4, ![512, 1, 64, 16]⟩
abbrev S1x512x64x16 : Shape := ⟨4, ![1, 512, 64, 16]⟩
abbrev S512x512x64x16 : Shape := ⟨4, ![512, 512, 64, 16]⟩
abbrev S_ : Shape := ⟨0, ![]⟩
abbrev S512x512x64 : Shape := ⟨3, ![512, 512, 64]⟩
abbrev S512x64 : Shape := ⟨2, ![512, 64]⟩
abbrev S512x1088 : Shape := ⟨2, ![512, 1088]⟩

abbrev nBuf : Space → Nat
  | .hbm => 21
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x64x16, .f32⟩
  | .hbm, ⟨2, _⟩ => ⟨S1024x1024, .f32⟩
  | .hbm, ⟨3, _⟩ => ⟨S512x1024, .f32⟩
  | .hbm, ⟨4, _⟩ => ⟨S512x64x16, .f32⟩
  | .hbm, ⟨5, _⟩ => ⟨S512x1x64x16, .f32⟩
  | .hbm, ⟨6, _⟩ => ⟨S1x512x64x16, .f32⟩
  | .hbm, ⟨7, _⟩ => ⟨S512x512x64x16, .f32⟩
  | .hbm, ⟨8, _⟩ => ⟨S512x512x64x16, .f32⟩
  | .hbm, ⟨9, _⟩ => ⟨S512x512x64x16, .f32⟩
  | .hbm, ⟨10, _⟩ => ⟨S512x512x64x16, .f32⟩
  | .hbm, ⟨11, _⟩ => ⟨S_, .f32⟩
  | .hbm, ⟨12, _⟩ => ⟨S512x512x64, .f32⟩
  | .hbm, ⟨13, _⟩ => ⟨S512x512x64, .f32⟩
  | .hbm, ⟨14, _⟩ => ⟨S512x512x64, .f32⟩
  | .hbm, ⟨15, _⟩ => ⟨S_, .f32⟩
  | .hbm, ⟨16, _⟩ => ⟨S512x64, .f32⟩
  | .hbm, ⟨17, _⟩ => ⟨S_, .f32⟩
  | .hbm, ⟨18, _⟩ => ⟨S512x64, .f32⟩
  | .hbm, ⟨19, _⟩ => ⟨S512x64, .f32⟩
  | .hbm, ⟨20, _⟩ => ⟨S512x1088, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  shapeCasts_S1024x64x16_S1024x1024 : S1024x64x16.ShapeCasts S1024x1024
  shapeCasts_S512x1024_S512x64x16 : S512x1024.ShapeCasts S512x64x16
  bcast_S512x64x16_S512x1x64x16_0_2_3 : S512x64x16.BroadcastsInDim S512x1x64x16 (![0, 2, 3] : Fin 3 → Fin S512x1x64x16.rank)
  bcast_S512x64x16_S1x512x64x16_1_2_3 : S512x64x16.BroadcastsInDim S1x512x64x16 (![1, 2, 3] : Fin 3 → Fin S1x512x64x16.rank)
  bcast_S512x1x64x16_S512x512x64x16_0_1_2_3 : S512x1x64x16.BroadcastsInDim S512x512x64x16 (![0, 1, 2, 3] : Fin 4 → Fin S512x512x64x16.rank)
  bcast_S1x512x64x16_S512x512x64x16_0_1_2_3 : S1x512x64x16.BroadcastsInDim S512x512x64x16 (![0, 1, 2, 3] : Fin 4 → Fin S512x512x64x16.rank)
  reducesTo_S512x512x64x16_S512x512x64_d3 : S512x512x64x16.ReducesTo [3] S512x512x64
  h_S_ : 0 < S_.numel
  reducesTo_S512x512x64_S512x64_d1 : S512x512x64.ReducesTo [1] S512x64
  bcast_S_S512x64 : S_.BroadcastsInDim S512x64 (![] : Fin 0 → Fin S512x64.rank)
  concatenates_S512x1024_S512x64_S512x1088_d1 : Shape.Concatenates [S512x1024, S512x64] S512x1088 1
  dot_S512x1024_S1024x1024_S512x1024_1_0_0_1_n_n_wf : DotDims.WF S512x1024 S1024x1024 S512x1024 [1] [0] [0] [1] [] []

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

class Facts : Prop extends Facts₀ where

variable [Facts]
-- ==== Proof.LibPlainMatmul.lean ====
/-
  A general fact about the ideal reading of a matrix product, independent of any program: a kernel's matrix product of an
  m×k by a k×n matrix (no batch axis; the left operand's columns contracted with the right operand's rows) into a zero
  accumulator, read at the entry (a, b), is the textbook sum  Σ_c A(a, c) · B(c, b)  on the extended reals.
  (The host's `dot_general` of the same shape has this reading in the library already; this is its twin for the kernel's
  accumulate-into-zero form.)
-/
import Idealize.ShloMosaic.PureOps.Ideal.Laws
import Idealize.ShloMosaic.Lib.ValueIdx

noncomputable section

namespace Idealize.ShloMosaic.LibPlainMatmul

open Idealize.ShloMosaic Idealize.ShloMosaic.ValueIdx

/-- The plain product of an m×k by a k×n matrix accumulated into the f32 zero splat, at the ideal values and at the
    entry (a, b): the sum over the contracted coordinate c of A(a, c) · B(c, b). -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (⟨2, ![m, n]⟩ : Shape) .f32 0x00000000#32) (ix2 a b)
      = ∑ c : Fin k, A (ix2 a c) * B (ix2 c b) := by
  show FloatOps.matmul (DotDims.plain m k n) prec A B (constant (⟨2, ![m, n]⟩ : Shape) .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c): its row is the output's row, its column the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  -- the right operand at (c, b): its row the contracted coordinate, its column the output's column
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Idealize.ShloMosaic.LibPlainMatmul

end
-- ==== Proof.RegionProd.lean ====
/-
  The first kernel region: a row-blocked matrix product. The grid has four points; point t stages rows
  128·t … 128·t + 127 of the left operand and the whole right operand, and writes back the product of the two
  blocks into the zero accumulator. Read at the ideal values every entry of that block is the textbook sum
  Σ_k A(r, k) · B(k, q) of the WHOLE arrays at the row r = 128·t + p, so the four write-backs tile the result
  array with one function of the two operand arrays: their plain product.
-/
import proofs.«124866_j2035814498340_1_alg».proof.Proof.Gen.KernelIdeal.Frame
import proofs.«124866_j2035814498340_1_alg».proof.Proof.LibPlainMatmul
import Idealize.ShloMosaic.Lib.Pipeline.Value
import Idealize.ShloMosaic.Lib.ValueIdx

noncomputable section

namespace Cert.KernelIdeal.Prod

open Cert.KernelIdeal Cert.KernelIdeal.Gen
open Idealize.ShloMosaic Idealize.ShloMosaic.TcCoe Idealize.SL.Sem Idealize.ShloMosaic.ValueIdx
open Idealize.ShloMosaic.Pipeline (Dat)
open Idealize.ShloMosaic.LibPlainMatmul

variable (V : (c : Dev nD) → (b : Ref sig .tc) → Buf (Elt Ideal) ((c : Thread nD τ).loc b))

theorem hz : (![0, 0] : Fin 2 → Nat) = fun _ => 0 := funext fun a => by fin_cases a <;> rfl

/-- The plain product of a 512×1024 by a 1024×1024 array on the extended reals, entry by entry. -/
def prodAll (A : Vec Ideal S512x1024 .bf16) (B : Vec Ideal S1024x1024 .bf16) : Vec Ideal S512x1024 .f32 :=
  fun i => ∑ k : Fin 1024, A (ix2 (i 0) k) * B (ix2 k (i 1))

/-- The body's product of its two staged blocks, at the entry (p, q). -/
theorem pay_apply (x0 : Vec Ideal S128x1024 .bf16) (x1 : Vec Ideal S1024x1024 .bf16) (p : Fin 128) (q : Fin 1024) :
    k0_pay1 x0 x1 (ix2 p q) = ∑ k : Fin 1024, x0 (ix2 p k) * x1 (ix2 k q) := by
  unfold k0_pay1
  rw [shapeCast_self, shapeCast_self]
  exact matmul_plain_zero_apply none x0 x1 p q

/-- The block indices of the three windows at a grid point: the row block is the point, every other block index zero. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t is rows 128·t … of the array. -/
theorem read_lhs (c : Dev nD) (t : Fin cfg0.N) (y : S128x1024.Idx) (i : S512x1024.Idx)
    (h0 : (i 0).val = t.val * 128 + (y 0).val) (h1 : (i 1).val = (y 1).val) :
    (iblk0 V c 0 t : Vec Ideal S128x1024 .bf16) y = (V c main_v1 : Vec Ideal S512x1024 .bf16) i := by
  obtain ⟨e0, e1, -⟩ := idx_facts t
  unfold iblk0
  rw [View.read_apply]
  show (V c main_v1 : Vec Ideal S512x1024 .bf16) _ = (V c main_v1 : Vec Ideal S512x1024 .bf16) i
  refine congrArg (V c main_v1 : Vec Ideal S512x1024 .bf16) (funext fun a => Fin.ext ?_)
  match a with
  | ⟨0, _⟩ => show win0_0.index t (0 : Fin 2) * 128 + 1 * (y 0).val = (i 0).val; rw [e0, h0]; omega
  | ⟨1, _⟩ => show win0_0.index t (1 : Fin 2) * 1024 + 1 * (y 1).val = (i 1).val; rw [e1, h1]; omega

/-- The right operand's block at every point is the whole array. -/
theorem read_rhs (c : Dev nD) (t : Fin cfg0.N) (y : S1024x1024.Idx) :
    (iblk0 V c 1 t : Vec Ideal S1024x1024 .bf16) y = (V c main_v2 : Vec Ideal S1024x1024 .bf16) y := by
  obtain ⟨-, -, e0, e1, -⟩ := idx_facts t
  unfold iblk0
  rw [View.read_apply]
  show (V c main_v2 : Vec Ideal S1024x1024 .bf16) _ = (V c main_v2 : Vec Ideal S1024x1024 .bf16) y
  refine congrArg (V c main_v2 : Vec Ideal S1024x1024 .bf16) (funext fun a => Fin.ext ?_)
  match a with
  | ⟨0, _⟩ => show win0_1.index t (0 : Fin 2) * 1024 + 1 * (y 0).val = (y 0).val; rw [e0]; omega
  | ⟨1, _⟩ => show win0_1.index t (1 : Fin 2) * 1024 + 1 * (y 1).val = (y 1).val; rw [e1]; omega

/-- What point t computes, at an entry of its block, is the whole arrays' product at that entry's place in the array. -/
theorem block_eq (c : Dev nD) (t : Fin cfg0.N) (j : S128x1024.Idx) (i : S512x1024.Idx)
    (h0 : (i 0).val = t.val * 128 + (j 0).val) (h1 : (i 1).val = (j 1).val) :
    k0_pay1 (iblk0 V c 0 t) (iblk0 V c 1 t) j = prodAll (V c main_v1) (V c main_v2) i := by
  obtain ⟨p, q, rfl⟩ : ∃ (p : Fin 128) (q : Fin 1024), j = ix2 p q := ⟨j 0, j 1, eq_ix2 j⟩
  refine (pay_apply (iblk0 V c 0 t) (iblk0 V c 1 t) p q).trans ?_
  unfold prodAll
  refine Finset.sum_congr rfl fun k _ => ?_
  have e : (ix2 k q : S1024x1024.Idx) = ix2 k (i 1) := funext fun a => by
    match a with
    | ⟨0, _⟩ => rfl
    | ⟨1, _⟩ => exact Fin.ext h1.symm
  rw [read_lhs V c t (ix2 p k) (ix2 (i 0) k) h0 rfl, read_rhs V c t (ix2 k q), e]
  rfl

/-- WHAT POINT t WRITES BACK is block t of the whole arrays' product. -/
theorem flushed_prod (c : Dev nD) (t : Fin cfg0.N) :
    (dat0 V c).flushed 2 t = ((cfg0.win 2).blk t).view.read (Elt Ideal) (prodAll (V c main_v1) (V c main_v2)) := by
  show (cfg0.win 2).cut (grid0.coords t) ((dat0 V c).after 2 t) = _
  rw [after0_2]
  unfold out0_2
  rw [View.canon_unit_zero hz]
  simp only [View.ld_unit_zero (S := S128x1024) hz, View.ld_unit_zero (S := S1024x1024) hz]
  funext j
  rw [View.read_apply]
  obtain ⟨-, -, -, -, e0, e1⟩ := idx_facts t
  refine block_eq V c t j _ ?_ ?_
  · show win0_2.index t (0 : Fin 2) * 128 + 1 * (j 0).val = t.val * 128 + (j 0).val; rw [e0]; omega
  · show win0_2.index t (1 : Fin 2) * 1024 + 1 * (j 1).val = (j 1).val; rw [e1]; omega

/-- An index of the result array is in point t's block iff each coordinate is in the block's range on its axis. -/
theorem mem_blk (t : Fin cfg0.N) (i : S512x1024.Idx) :
    i ∈ ((cfg0.win 2).blk t).view.set ↔ ∀ a : Fin 2, win0_2.index t a * S128x1024.size a ≤ (i a).val ∧ (i a).val < win0_2.index t a * S128x1024.size a + S128x1024.size a := by
  show i ∈ ((View.whole main_v3).slice (win0_2.rect t)).set ↔ _
  rw [View.set_slice_whole, Rect.mem_set_unit]
  exact Iff.rfl

/-- Every row of the result lies in the block of the point its row block names. -/
theorem cover (i : S512x1024.Idx) : ∃ t : Fin cfg0.N, (cfg0.win 2).flush t = true ∧ i ∈ ((cfg0.win 2).blk t).view.set := by
  have hi0 : (i 0).val < 512 := (i 0).isLt
  have hi1 : (i 1).val < 1024 := (i 1).isLt
  have hN : cfg0.N = 4 := N_0
  let t : Fin cfg0.N := ⟨(i 0).val / 128, by rw [hN]; omega⟩
  obtain ⟨-, -, -, -, e0, e1⟩ := idx_facts t
  refine ⟨t, flush0_2 t, ?_⟩
  rw [mem_blk]
  intro a
  match a with
  | ⟨0, _⟩ => show win0_2.index t (0 : Fin 2) * 128 ≤ (i 0).val ∧ (i 0).val < win0_2.index t (0 : Fin 2) * 128 + 128
              rw [e0]; show (i 0).val / 128 * 128 ≤ (i 0).val ∧ (i 0).val < (i 0).val / 128 * 128 + 128; omega
  | ⟨1, _⟩ => show win0_2.index t (1 : Fin 2) * 1024 ≤ (i 1).val ∧ (i 1).val < win0_2.index t (1 : Fin 2) * 1024 + 1024
              rw [e1]; omega

/-- THE RESULT ARRAY after the region: the plain product of the two operand arrays as the region found them. -/
theorem final_prod (c : Dev nD) : (dat0 V c).arrAt 2 cfg0.N = prodAll (V c main_v1) (V c main_v2) :=
  (dat0 V c).arrAt_eq_of_cover 2 (prodAll (V c main_v1) (V c main_v2)) (fun t _ => flushed_prod V c t) cover

end Cert.KernelIdeal.Prod

end
-- ==== Proof.LibColumn.lean ====
/-
  Two layout readings a row reduction with kept dimensions needs: a length-a vector cast to an a × 1 column, and an
  a × 1 column broadcast along the rows of an a × b array, each read at an index.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.RegionDist.lean ====
/-
  The second kernel region: pairwise L1 distances within one head. The grid has 64 points, one per head b; point b
  stages the head's 16 × 512 block Z_b (channel by sample) and writes back, for every sample n,
      Σ_j exp(0 − Σ_c |Z_b(c, n) − Z_b(c, j)|) − 1.
  The body adds the sixteen channels' |row(n) − row(j)| arrays one after another onto a zero array; on the extended
  reals that left-to-right sum is the sum over the channel index. The 64 write-backs tile the result array with one
  function of the whole input array.
-/
import proofs.«124866_j2035814498340_1_alg».proof.Proof.Gen.KernelIdeal.Frame
import proofs.«124866_j2035814498340_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Dist

open Cert.KernelIdeal Cert.KernelIdeal.Gen
open Idealize.ShloMosaic Idealize.ShloMosaic.TcCoe Idealize.SL.Sem Idealize.ShloMosaic.ValueIdx
open Idealize.ShloMosaic.Pipeline (Dat)
open Cert.LibColumn

variable (V : (c : Dev nD) → (b : Ref sig .tc) → Buf (Elt Ideal) ((c : Thread nD τ).loc b))

theorem hz3 : (![0, 0, 0] : Fin 3 → Nat) = fun _ => 0 := funext fun a => by fin_cases a <;> rfl

/-! ## One channel -/

/-- A [1, 1, 512] row cast to a length-512 vector reads the row's entry. -/
theorem cast_row (r : Vec Ideal S1x1x512 .f32) (p : Fin 512) :
    shapeCast S512 r shapeCasts_S1x1x512_S512 (ix1 p) = r (ix3 0 0 p) :=
  shapeCast_apply r shapeCasts_S1x1x512_S512 _ _ (by
    rw [Shape.rowMajor_val_three, Shape.rowMajor_val_one]
    show ((0 : Fin 1).val * 1 + (0 : Fin 1).val) * 512 + p.val = p.val
    simp)

/-- One channel's array of absolute differences: entry (p, q) is |r(p) − r(q)|, the row laid down the rows and
    across the columns. -/
def pd (r : Vec Ideal S1x1x512 .f32) : FVec Ideal S512x512 .f32 :=
  absf (subf (broadcastTo S512x512 (shapeCast S512x1 (shapeCast S512 r shapeCasts_S1x1x512_S512) shapeCasts_S512_S512x1) broadcasts_S512x1_S512x512)
    (broadcastTo S512x512 (shapeCast S1x512 (shapeCast S512 r shapeCasts_S1x1x512_S512) shapeCasts_S512_S1x512) broadcasts_S1x512_S512x512))

theorem pd_apply (r : Vec Ideal S1x1x512 .f32) (p q : Fin 512) :
    pd r (ix2 p q) = FloatOps.absf (r (ix3 0 0 p) - r (ix3 0 0 q)) := by
  unfold pd
  show FloatOps.absf (broadcastTo S512x512 _ broadcasts_S512x1_S512x512 (ix2 p q) - broadcastTo S512x512 _ broadcasts_S1x512_S512x512 (ix2 p q)) = _
  rw [broadcastTo_a1_ab_apply, shapeCast_a_a1_apply, broadcastTo_1b_ab_apply, shapeCast_a_1a_apply, cast_row r p, cast_row r q]

/-! ## The sixteen channels, and the closing operations -/

/-- The sixteen channels' arrays added one after another onto the zero array. -/
def accAll (x0 : Vec Ideal S1x16x512 .f32) : FVec Ideal S512x512 .f32 :=
  (addf (addf (addf (addf (addf (addf (addf (addf (addf (addf (addf (addf (addf (addf (addf (addf (broadcast S512x512 (Scalar.ofBits (F := Ideal) .f32 0x00000000#32)) (pd (View.ld x0 r1_0))) (pd (View.ld x0 r1_1))) (pd (View.ld x0 r1_2))) (pd (View.ld x0 r1_3))) (pd (View.ld x0 r1_4))) (pd (View.ld x0 r1_5))) (pd (View.ld x0 r1_6))) (pd (View.ld x0 r1_7))) (pd (View.ld x0 r1_8))) (pd (View.ld x0 r1_9))) (pd (View.ld x0 r1_10))) (pd (View.ld x0 r1_11))) (pd (View.ld x0 r1_12))) (pd (View.ld x0 r1_13))) (pd (View.ld x0 r1_14))) (pd (View.ld x0 r1_15)))

/-- The closing operations: negate (as 0 − ·), exponentiate, sum each row's lanes, subtract one, lay out as a [1, 1, 512] row. -/
def finish (acc : FVec Ideal S512x512 .f32) : FVec Ideal S1x1x512 .f32 :=
  shapeCast S1x1x512 (shapeCast S1x512 (subf (multiReduction .add [1] S512 (exp (subf (broadcast S512x512 (Scalar.ofBits (F := Ideal) .f32 0x00000000#32)) acc)) 0x00000000#32 reduces_S512x512_S512 (.inl rfl) rfl)
    (broadcast S512 (Scalar.ofBits (F := Ideal) .f32 0x3F800000#32))) shapeCasts_S512_S1x512) shapeCasts_S1x512_S1x1x512

/-- The body's one stored value is the closing operations of the sixteen channels' sum (the body's text, regrouped). -/
theorem body_eq (x0 : Vec Ideal S1x16x512 .f32) :
    k1_pay1 (k1_pay10 (k1_pay6 (k1_pay2 (View.ld x0 r1_0) (View.ld x0 r1_1) (View.ld x0 r1_2) (View.ld x0 r1_3)) (k1_pay4 (View.ld x0 r1_4)) (k1_pay5 (View.ld x0 r1_4)) (View.ld x0 r1_5) (View.ld x0 r1_6) (View.ld x0 r1_7) (View.ld x0 r1_8)) (k1_pay8 (View.ld x0 r1_9)) (k1_pay9 (View.ld x0 r1_9)) (View.ld x0 r1_10) (View.ld x0 r1_11) (View.ld x0 r1_12) (View.ld x0 r1_13)) (k1_pay12 (View.ld x0 r1_14)) (k1_pay13 (View.ld x0 r1_14)) (View.ld x0 r1_15)
      = finish (accAll x0) := rfl

/-- A row loaded from the block at channel offset cc reads the block at (0, cc, n). -/
theorem ld_row (x0 : Vec Ideal S1x16x512 .f32) (off : Fin 3 → Nat) (inb : ∀ a, off a + S1x1x512.size a ≤ S1x16x512.size a)
    (cc : Fin 16) (hoff : off = ![0, cc.val, 0]) (n : Fin 512) :
    View.ld x0 (Rect.unit (s := S1x16x512) off S1x1x512.size inb) (ix3 0 0 n) = x0 (ix3 0 cc n) := by
  subst hoff
  show x0 ((Rect.unit (s := S1x16x512) ![0, cc.val, 0] S1x1x512.size inb).emb (ix3 0 0 n)) = x0 (ix3 0 cc n)
  refine congrArg x0 (funext fun a => Fin.ext ?_)
  rw [Rect.emb_apply]
  match a with
  | ⟨0, _⟩ => show 0 + 1 * (0 : Fin 1).val = (0 : Fin 1).val; simp
  | ⟨1, _⟩ => show cc.val + 1 * (0 : Fin 1).val = cc.val; simp
  | ⟨2, _⟩ => show 0 + 1 * n.val = n.val; simp

/-- Sixteen terms added one after another onto zero are the sum over the sixteen indices. -/
theorem sum16 (d : Fin 16 → EReal) :
    ((((((((((((((((0 + d 0) + d 1) + d 2) + d 3) + d 4) + d 5) + d 6) + d 7) + d 8) + d 9) + d 10) + d 11) + d 12) + d 13) + d 14) + d 15) = ∑ c : Fin 16, d c := by
  simp only [Fin.sum_univ_castSucc, Fin.sum_univ_zero]
  rfl

/-- The sum of the channels at the entry (p, q). -/
theorem accAll_apply (x0 : Vec Ideal S1x16x512 .f32) (p q : Fin 512) :
    accAll x0 (ix2 p q) = ∑ cc : Fin 16, FloatOps.absf (F := Ideal) (φ := .f32) (x0 (ix3 0 cc p) - x0 (ix3 0 cc q)) := by
  rw [← sum16]
  unfold accAll
  show ((((((((((((((((Ideal.ofBits .f32 0x00000000#32 + pd (View.ld x0 r1_0) (ix2 p q)) + pd (View.ld x0 r1_1) (ix2 p q)) + pd (View.ld x0 r1_2) (ix2 p q)) + pd (View.ld x0 r1_3) (ix2 p q)) + pd (View.ld x0 r1_4) (ix2 p q)) + pd (View.ld x0 r1_5) (ix2 p q)) + pd (View.ld x0 r1_6) (ix2 p q)) + pd (View.ld x0 r1_7) (ix2 p q)) + pd (View.ld x0 r1_8) (ix2 p q)) + pd (View.ld x0 r1_9) (ix2 p q)) + pd (View.ld x0 r1_10) (ix2 p q)) + pd (View.ld x0 r1_11) (ix2 p q)) + pd (View.ld x0 r1_12) (ix2 p q)) + pd (View.ld x0 r1_13) (ix2 p q)) + pd (View.ld x0 r1_14) (ix2 p q)) + pd (View.ld x0 r1_15) (ix2 p q)) = _
  rw [Ideal.ofBits_zero_f32]
  simp only [pd_apply]
  have h0 : ∀ n : Fin 512, View.ld x0 r1_0 (ix3 0 0 n) = x0 (ix3 0 0 n) := fun n => ld_row x0 _ inb_S1x16x512_S1x1x512_0_0_0 0 rfl n
  have h1 : ∀ n : Fin 512, View.ld x0 r1_1 (ix3 0 0 n) = x0 (ix3 0 1 n) := fun n => ld_row x0 _ inb_S1x16x512_S1x1x512_0_1_0 1 rfl n
  have h2 : ∀ n : Fin 512, View.ld x0 r1_2 (ix3 0 0 n) = x0 (ix3 0 2 n) := fun n => ld_row x0 _ inb_S1x16x512_S1x1x512_0_2_0 2 rfl n
  have h3 : ∀ n : Fin 512, View.ld x0 r1_3 (ix3 0 0 n) = x0 (ix3 0 3 n) := fun n => ld_row x0 _ inb_S1x16x512_S1x1x512_0_3_0 3 rfl n
  have h4 : ∀ n : Fin 512, View.ld x0 r1_4 (ix3 0 0 n) = x0 (ix3 0 4 n) := fun n => ld_row x0 _ inb_S1x16x512_S1x1x512_0_4_0 4 rfl n
  have h5 : ∀ n : Fin 512, View.ld x0 r1_5 (ix3 0 0 n) = x0 (ix3 0 5 n) := fun n => ld_row x0 _ inb_S1x16x512_S1x1x512_0_5_0 5 rfl n
  have h6 : ∀ n : Fin 512, View.ld x0 r1_6 (ix3 0 0 n) = x0 (ix3 0 6 n) := fun n => ld_row x0 _ inb_S1x16x512_S1x1x512_0_6_0 6 rfl n
  have h7 : ∀ n : Fin 512, View.ld x0 r1_7 (ix3 0 0 n) = x0 (ix3 0 7 n) := fun n => ld_row x0 _ inb_S1x16x512_S1x1x512_0_7_0 7 rfl n
  have h8 : ∀ n : Fin 512, View.ld x0 r1_8 (ix3 0 0 n) = x0 (ix3 0 8 n) := fun n => ld_row x0 _ inb_S1x16x512_S1x1x512_0_8_0 8 rfl n
  have h9 : ∀ n : Fin 512, View.ld x0 r1_9 (ix3 0 0 n) = x0 (ix3 0 9 n) := fun n => ld_row x0 _ inb_S1x16x512_S1x1x512_0_9_0 9 rfl n
  have h10 : ∀ n : Fin 512, View.ld x0 r1_10 (ix3 0 0 n) = x0 (ix3 0 10 n) := fun n => ld_row x0 _ inb_S1x16x512_S1x1x512_0_10_0 10 rfl n
  have h11 : ∀ n : Fin 512, View.ld x0 r1_11 (ix3 0 0 n) = x0 (ix3 0 11 n) := fun n => ld_row x0 _ inb_S1x16x512_S1x1x512_0_11_0 11 rfl n
  have h12 : ∀ n : Fin 512, View.ld x0 r1_12 (ix3 0 0 n) = x0 (ix3 0 12 n) := fun n => ld_row x0 _ inb_S1x16x512_S1x1x512_0_12_0 12 rfl n
  have h13 : ∀ n : Fin 512, View.ld x0 r1_13 (ix3 0 0 n) = x0 (ix3 0 13 n) := fun n => ld_row x0 _ inb_S1x16x512_S1x1x512_0_13_0 13 rfl n
  have h14 : ∀ n : Fin 512, View.ld x0 r1_14 (ix3 0 0 n) = x0 (ix3 0 14 n) := fun n => ld_row x0 _ inb_S1x16x512_S1x1x512_0_14_0 14 rfl n
  have h15 : ∀ n : Fin 512, View.ld x0 r1_15 (ix3 0 0 n) = x0 (ix3 0 15 n) := fun n => ld_row x0 _ inb_S1x16x512_S1x1x512_0_15_0 15 rfl n
  rw [h0 p, h0 q, h1 p, h1 q, h2 p, h2 q, h3 p, h3 q, h4 p, h4 q, h5 p, h5 q, h6 p, h6 q, h7 p, h7 q, h8 p, h8 q, h9 p, h9 q, h10 p, h10 q, h11 p, h11 q, h12 p, h12 q, h13 p, h13 q, h14 p, h14 q, h15 p, h15 q]

/-- The closing operations at the sample n. -/
theorem finish_apply (acc : FVec Ideal S512x512 .f32) (n : Fin 512) :
    finish acc (ix3 0 0 n) = (∑ j : Fin 512, Ideal.exp (0 - acc (ix2 n j))) - Ideal.ofBits .f32 0x3F800000#32 := by
  unfold finish
  rw [shapeCast_ab_1ab_apply, shapeCast_a_1a_apply]
  show multiReduction .add [1] S512 _ 0x00000000#32 reduces_S512x512_S512 (.inl rfl) rfl (ix1 n) - Ideal.ofBits .f32 0x3F800000#32 = _
  refine congrArg (· - Ideal.ofBits .f32 0x3F800000#32) ?_
  refine (Ideal.multiReduction_add_single (exp (subf (broadcast S512x512 (Scalar.ofBits (F := Ideal) .f32 0x00000000#32)) acc)) 0x00000000#32 reduces_S512x512_S512 (.inl rfl) rfl (ix1 n)).trans ?_
  refine Finset.sum_congr rfl fun j _ => ?_
  show Ideal.exp (Ideal.ofBits .f32 0x00000000#32 - acc (reduces_S512x512_S512.lift (ix1 n) j)) = _
  rw [Ideal.ofBits_zero_f32]
  refine congrArg (fun z => Ideal.exp (0 - acc z)) (funext fun a => Fin.ext ?_)
  match a with
  | ⟨0, _⟩ => rfl
  | ⟨1, _⟩ => rfl

/-- The head's result at sample n, as a function of the head's block. -/
def distAt (Z : Vec Ideal S64x16x512 .f32) (b : Fin 64) (n : Fin 512) : EReal :=
  (∑ j : Fin 512, Ideal.exp (0 - ∑ cc : Fin 16, FloatOps.absf (F := Ideal) (φ := .f32) (Z (ix3 b cc n) - Z (ix3 b cc j)))) - Ideal.ofBits .f32 0x3F800000#32

/-- The whole result array of the region, as a function of its input array. -/
def distAll (Z : Vec Ideal S64x16x512 .f32) : Vec Ideal S64x1x512 .f32 := fun i => distAt Z (i 0) (i 2)

/-- What the body leaves in the output block, at sample n, from the staged block. -/
theorem out_apply (x0 : Vec Ideal S1x16x512 .f32) (n : Fin 512) :
    out1_1 x0 (ix3 0 0 n)
      = (∑ j : Fin 512, Ideal.exp (0 - ∑ cc : Fin 16, FloatOps.absf (F := Ideal) (φ := .f32) (x0 (ix3 0 cc n) - x0 (ix3 0 cc j)))) - Ideal.ofBits .f32 0x3F800000#32 := by
  unfold out1_1
  rw [View.canon_unit_zero hz3, body_eq, finish_apply]
  simp only [accAll_apply]

/-! ## From blocks to the array -/

/-- The block indices of the two windows at a grid point: the head is the point, every other block index zero. -/
theorem idx_facts : ∀ t : Fin cfg1.N, win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0 :=
  (by decide +kernel : ∀ t : Fin grid1.N, _)

/-- The input block at point t is head t of the array. -/
theorem read_in (c : Dev nD) (t : Fin cfg1.N) (y : S1x16x512.Idx) (i : S64x16x512.Idx)
    (h0 : (i 0).val = t.val) (h1 : (i 1).val = (y 1).val) (h2 : (i 2).val = (y 2).val) :
    (iblk1 V c 0 t : Vec Ideal S1x16x512 .f32) y = (V c main_v5 : Vec Ideal S64x16x512 .f32) i := by
  obtain ⟨e0, e1, e2, -⟩ := idx_facts t
  have hy0 : (y 0).val = 0 := by have h : (y 0).val < 1 := (y 0).isLt; omega
  unfold iblk1
  rw [View.read_apply]
  show (V c main_v5 : Vec Ideal S64x16x512 .f32) _ = (V c main_v5 : Vec Ideal S64x16x512 .f32) i
  refine congrArg (V c main_v5 : Vec Ideal S64x16x512 .f32) (funext fun a => Fin.ext ?_)
  match a with
  | ⟨0, _⟩ => show win1_0.index t (0 : Fin 3) * 1 + 1 * (y 0).val = (i 0).val; rw [e0, h0, hy0]; omega
  | ⟨1, _⟩ => show win1_0.index t (1 : Fin 3) * 16 + 1 * (y 1).val = (i 1).val; rw [e1, h1]; omega
  | ⟨2, _⟩ => show win1_0.index t (2 : Fin 3) * 512 + 1 * (y 2).val = (i 2).val; rw [e2, h2]; omega

/-- What point t leaves in its output block is the whole array's function at that entry's place in the array. -/
theorem block_eq (c : Dev nD) (t : Fin cfg1.N) (j : S1x1x512.Idx) (i : S64x1x512.Idx)
    (h0 : (i 0).val = t.val) (h2 : (i 2).val = (j 2).val) :
    out1_1 (iblk1 V c 0 t) j = distAll (V c main_v5) i := by
  obtain ⟨n, rfl⟩ : ∃ n : Fin 512, j = ix3 0 0 n := ⟨j 2, funext fun a => by
    match a with
    | ⟨0, _⟩ => exact Fin.ext (by have h : (j 0).val < 1 := (j 0).isLt; show (j 0).val = 0; omega)
    | ⟨1, _⟩ => exact Fin.ext (by have h : (j 1).val < 1 := (j 1).isLt; show (j 1).val = 0; omega)
    | ⟨2, _⟩ => rfl⟩
  refine (out_apply (iblk1 V c 0 t) n).trans ?_
  have hr : ∀ (cc : Fin 16) (n' : Fin 512), (iblk1 V c 0 t : Vec Ideal S1x16x512 .f32) (ix3 0 cc n') = (V c main_v5 : Vec Ideal S64x16x512 .f32) (ix3 (i 0) cc n') :=
    fun cc n' => read_in V c t _ _ h0 rfl rfl
  have e2 : (i 2 : Fin 512) = n := Fin.ext h2
  unfold distAll distAt
  simp only [hr, e2]

/-- WHAT POINT t WRITES BACK is block t of the whole array's function. -/
theorem flushed_dist (c : Dev nD) (t : Fin cfg1.N) :
    (dat1 V c).flushed 1 t = ((cfg1.win 1).blk t).view.read (Elt Ideal) (distAll (V c main_v5)) := by
  show (cfg1.win 1).cut (grid1.coords t) ((dat1 V c).after 1 t) = _
  rw [after1_1]
  funext j
  rw [View.read_apply]
  obtain ⟨-, -, -, e0, e1, e2⟩ := idx_facts t
  have hj0 : (j 0).val = 0 := by have h : (j 0).val < 1 := (j 0).isLt; omega
  refine block_eq V c t j _ ?_ ?_
  · show win1_1.index t (0 : Fin 3) * 1 + 1 * (j 0).val = t.val; rw [e0, hj0]; omega
  · show win1_1.index t (2 : Fin 3) * 512 + 1 * (j 2).val = (j 2).val; rw [e2]; omega

/-- An index of the result array is in point t's block iff each coordinate is in the block's range on its axis. -/
theorem mem_blk (t : Fin cfg1.N) (i : S64x1x512.Idx) :
    i ∈ ((cfg1.win 1).blk t).view.set ↔ ∀ a : Fin 3, win1_1.index t a * S1x1x512.size a ≤ (i a).val ∧ (i a).val < win1_1.index t a * S1x1x512.size a + S1x1x512.size a := by
  show i ∈ ((View.whole main_v6).slice (win1_1.rect t)).set ↔ _
  rw [View.set_slice_whole, Rect.mem_set_unit]
  exact Iff.rfl

/-- Every entry of the result lies in the block of the point its head names. -/
theorem cover (i : S64x1x512.Idx) : ∃ t : Fin cfg1.N, (cfg1.win 1).flush t = true ∧ i ∈ ((cfg1.win 1).blk t).view.set := by
  have hi0 : (i 0).val < 64 := (i 0).isLt
  have hi1 : (i 1).val < 1 := (i 1).isLt
  have hi2 : (i 2).val < 512 := (i 2).isLt
  have hN : cfg1.N = 64 := N_1
  let t : Fin cfg1.N := ⟨(i 0).val, by rw [hN]; omega⟩
  obtain ⟨-, -, -, e0, e1, e2⟩ := idx_facts t
  refine ⟨t, flush1_1 t, ?_⟩
  rw [mem_blk]
  intro a
  match a with
  | ⟨0, _⟩ => show win1_1.index t (0 : Fin 3) * 1 ≤ (i 0).val ∧ (i 0).val < win1_1.index t (0 : Fin 3) * 1 + 1
              rw [e0]; show (i 0).val * 1 ≤ (i 0).val ∧ (i 0).val < (i 0).val * 1 + 1; omega
  | ⟨1, _⟩ => show win1_1.index t (1 : Fin 3) * 1 ≤ (i 1).val ∧ (i 1).val < win1_1.index t (1 : Fin 3) * 1 + 1
              rw [e1]; omega
  | ⟨2, _⟩ => show win1_1.index t (2 : Fin 3) * 512 ≤ (i 2).val ∧ (i 2).val < win1_1.index t (2 : Fin 3) * 512 + 512
              rw [e2]; omega

/-- THE RESULT ARRAY after the region: the pairwise-distance function of the input array as the region found it. -/
theorem final_dist (c : Dev nD) : (dat1 V c).arrAt 1 cfg1.N = distAll (V c main_v5) :=
  (dat1 V c).arrAt_eq_of_cover 1 (distAll (V c main_v5)) (fun t _ => flushed_dist V c t) cover

end Cert.KernelIdeal.Dist

end
-- ==== Proof.KernelValue.lean ====
/-
  The whole kernel program, read: the result buffer after the run as one function of the two argument arrays. The
  three stretches of host operations are read back (a reshape and two format changes before the product; a reshape
  and a transpose between the regions; a reshape, a transpose and the final concatenate), and each region's result
  array is the whole-array function its blocks tile. The result is the first argument with a 512 × 64 block joined
  on: the block is a transpose of the distances' array, computed from the transposed and reshaped product.
-/
import proofs.«124866_j2035814498340_1_alg».proof.Proof.KernelRun
import proofs.«124866_j2035814498340_1_alg».proof.Proof.RegionProd
import proofs.«124866_j2035814498340_1_alg».proof.Proof.RegionDist
import Idealize.ShloMosaic.Lib.StableHlo.Run

noncomputable section

namespace Cert.KernelIdeal.Whole

open Cert.KernelIdeal Cert.KernelIdeal.Gen
open Idealize.ShloMosaic Idealize.ShloMosaic.TcCoe Idealize.SL.Sem Idealize.ShloMosaic.ValueIdx
open Idealize.ShloMosaic.Pipeline (Dat)
open Cert.KernelIdeal.Prod Cert.KernelIdeal.Dist Cert.KernelIdeal.Named Idealize.ShloMosaic.StableHlo

variable (m : (ℓ : Loc nD τ sig) → Buf (Elt Ideal) ℓ) (ρ : Dev nD → PrngReg)

/-- The two argument arrays as launched. -/
abbrev xArr (c : Dev nD) : FVec Ideal S512x1024 .f32 := m ((c.tc : Thread nD τ).loc main_arg0)
abbrev tArr (c : Dev nD) : FVec Ideal S1024x64x16 .f32 := m ((c.tc : Thread nD τ).loc main_arg1)

/-- The product's left operand as the first region finds it: the first argument, its format changed. -/
theorem entry_lhs (c : Dev nD) : (V1 m ρ c main_v1 : FVec Ideal S512x1024 .bf16) = truncf (F := Ideal) .bf16 (xArr m c) bitsLt_bf16_f32 := by
  show StableHlo.after hostOps0 (W0 m ρ c) (Proc.devRef .tc main_v1) = _
  after_results

/-- The product's right operand as the first region finds it: the second argument reshaped to a matrix, its format changed. -/
theorem entry_rhs (c : Dev nD) : (V1 m ρ c main_v2 : FVec Ideal S1024x1024 .bf16)
    = truncf (F := Ideal) .bf16 (shapeCast S1024x1024 (tArr m c) shapeCasts_S1024x64x16_S1024x1024) bitsLt_bf16_f32 := by
  show StableHlo.after hostOps0 (W0 m ρ c) (Proc.devRef .tc main_v2) = _
  after_results
  rfl

/-- The product of the two arguments (reshaped), as a 512 × 1024 array. -/
def prodOf (x : FVec Ideal S512x1024 .f32) (T : FVec Ideal S1024x64x16 .f32) : FVec Ideal S512x1024 .f32 :=
  prodAll (truncf (F := Ideal) .bf16 x bitsLt_bf16_f32) (truncf (F := Ideal) .bf16 (shapeCast S1024x1024 T shapeCasts_S1024x64x16_S1024x1024) bitsLt_bf16_f32)

/-- The distances' input: the product reshaped to sample × head × channel, then laid out head × channel × sample. -/
def headsOf (x : FVec Ideal S512x1024 .f32) (T : FVec Ideal S1024x64x16 .f32) : FVec Ideal S64x16x512 .f32 :=
  transpose S64x16x512 [1, 2, 0] (shapeCast S512x64x16 (prodOf x T) shapeCasts_S512x1024_S512x64x16) transposes_S512x64x16_S64x16x512_1_2_0

/-- The joined block: the distances' array with its unit axis dropped, laid out sample × head. -/
def outBlock (x : FVec Ideal S512x1024 .f32) (T : FVec Ideal S1024x64x16 .f32) : FVec Ideal S512x64 .f32 :=
  transpose S512x64 [1, 0] (shapeCast S64x512 (distAll (headsOf x T)) shapeCasts_S64x1x512_S64x512) transposes_S64x512_S512x64_1_0

/-- The second region's input as it finds it. -/
theorem entry_heads (c : Dev nD) : (V3 m ρ c main_v5 : FVec Ideal S64x16x512 .f32) = headsOf (xArr m c) (tArr m c) := by
  show StableHlo.after hostOps1 (W2 m ρ c) (Proc.devRef .tc main_v5) = _
  after_results
  rw [show W2 m ρ c (Proc.devRef .tc main_v3) = (dat0 (V1 m ρ) c).arrAt 2 cfg0.N from W2_arr m ρ c 2,
    final_prod (V1 m ρ) c, entry_lhs m ρ c, entry_rhs m ρ c]
  rfl

/-- The first argument is still as launched when the last stretch reads it. -/
theorem exit_arg0 (c : Dev nD) : W4 m ρ c (Proc.devRef .tc main_arg0) = xArr m c := by
  have h : W5 m ρ c (Proc.devRef .tc main_arg0) = W4 m ρ c (Proc.devRef .tc main_arg0) := by
    show StableHlo.after hostOps2 (W4 m ρ c) (Proc.devRef .tc main_arg0) = _
    after_results
  exact h.symm.trans (W5_main_arg0 m ρ c)

/-- THE RESULT BUFFER after the last stretch: the first argument with the block joined on. -/
theorem result_eq (c : Dev nD) : W5 m ρ c (Proc.devRef .tc main_v9)
    = concatenate S512x1088 1 [⟨S512x1024, xArr m c⟩, ⟨S512x64, outBlock (xArr m c) (tArr m c)⟩] concatenates_S512x1024_S512x64_S512x1088_d1 := by
  show StableHlo.after hostOps2 (W4 m ρ c) (Proc.devRef .tc main_v9) = _
  after_results
  rw [exit_arg0 m ρ c, show W4 m ρ c (Proc.devRef .tc main_v6) = (dat1 (V3 m ρ) c).arrAt 1 cfg1.N from W4_arr m ρ c 1,
    final_dist (V3 m ρ) c, entry_heads m ρ c]
  rfl

/-- The run, read: the result buffer at that function of the arguments, the arguments unchanged. -/
theorem run_value : θ_run defs (onTc (τ := τ) (main (F := Ideal))) ⟨m, fun _ => 0, ρ⟩ (fun r => ∀ c : Dev nD,
      r.2.mem ((c.tc : Thread nD τ).loc main_v9)
        = concatenate S512x1088 1 [⟨S512x1024, xArr m c⟩, ⟨S512x64, outBlock (xArr m c) (tArr m c)⟩] concatenates_S512x1024_S512x64_S512x1088_d1
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_eq m ρ c), (h c).2⟩) (run_named m ρ)

end Cert.KernelIdeal.Whole

end
-- ==== Proof.Spec.lean ====
/-
  What both programs compute, entry by entry, on the extended reals. For samples x (512 × 1024) and a tensor T
  (1024 × 64 × 16):
      M(n, b, c) = Σ_k x(n, k) · T(k, b, c)                                 the projection of sample n, head b, channel c
      o(n, b)    = Σ_j exp(−Σ_c |M(n, b, c) − M(j, b, c)|) − 1              the similarity of sample n to all samples, per head
  and the result is x with the 512 × 64 array o joined on as 64 more columns.
-/
import Idealize.ShloMosaic.PureOps.Ideal
import Idealize.ShloMosaic.Lib.ValueIdx

noncomputable section

namespace Cert.Spec

open Idealize.ShloMosaic Idealize.ShloMosaic.ValueIdx

/-- The projection M(n, b, c). -/
def proj (x : (⟨2, ![512, 1024]⟩ : Shape).Idx → EReal) (T : (⟨3, ![1024, 64, 16]⟩ : Shape).Idx → EReal)
    (n : Fin 512) (b : Fin 64) (cc : Fin 16) : EReal :=
  ∑ k : Fin 1024, x (ix2 n k) * T (ix3 k b cc)

/-- The similarity o(n, b): over all samples j, the exponential of minus the L1 distance between the projections of n
    and j in head b, summed, less one (the constant one is kept as its binary word: the same word on both sides). -/
def simil (x : (⟨2, ![512, 1024]⟩ : Shape).Idx → EReal) (T : (⟨3, ![1024, 64, 16]⟩ : Shape).Idx → EReal)
    (n : Fin 512) (b : Fin 64) : EReal :=
  (∑ j : Fin 512, Ideal.exp (-(∑ cc : Fin 16, FloatOps.absf (F := Ideal) (φ := .f32) (proj x T n b cc - proj x T j b cc))))
    - Ideal.ofBits .f32 0x3F800000#32

end Cert.Spec

end
-- ==== Proof.KernelIndex.lean ====
/-
  The kernel's joined block, read at an index. Through the last transpose and reshape, entry (n, b) is the second
  region's result for head b at sample n; its input, head b, channel c, sample j, is through the transpose and the
  reshape between the regions the product at row j and column 16·b + c, which through the first reshape is the
  projection M(j, b, c). So the block is the specification's similarity, with 0 − a written −a.
-/
import proofs.«124866_j2035814498340_1_alg».proof.Proof.KernelValue
import proofs.«124866_j2035814498340_1_alg».proof.Proof.Spec
import Idealize.ShloMosaic.Lib.ValueLayout

noncomputable section

namespace Cert.KernelIdeal.AtIndex

open Cert.KernelIdeal Cert.KernelIdeal.Gen
open Idealize.ShloMosaic Idealize.ShloMosaic.TcCoe Idealize.SL.Sem Idealize.ShloMosaic.ValueIdx
open Idealize.ShloMosaic.Pipeline (Dat)
open Cert.KernelIdeal.Prod Cert.KernelIdeal.Dist Cert.KernelIdeal.Whole

/-- The second region's input at (head b, channel c, sample n) is the projection M(n, b, c). -/
theorem heads_apply (x : FVec Ideal S512x1024 .f32) (T : FVec Ideal S1024x64x16 .f32) (b : Fin 64) (cc : Fin 16) (n : Fin 512) :
    headsOf x T (ix3 b cc n) = Cert.Spec.proj x T n b cc := by
  have hn := n.isLt
  have hb := b.isLt
  have hc := cc.isLt
  unfold headsOf
  refine (transpose_apply [1, 2, 0] _ transposes_S512x64x16_S64x16x512_1_2_0 (ix3 b cc n) (ix3 n b cc)
    (fun a => match a with | ⟨0, _⟩ => rfl | ⟨1, _⟩ => rfl | ⟨2, _⟩ => rfl)).trans ?_
  refine (shapeCast_apply _ shapeCasts_S512x1024_S512x64x16 (ix3 n b cc) (ix2 n (⟨b.val * 16 + cc.val, by omega⟩ : Fin 1024)) (by
    rw [Shape.rowMajor_val_two, Shape.rowMajor_val_three]
    show n.val * 1024 + (b.val * 16 + cc.val) = (n.val * 64 + b.val) * 16 + cc.val
    omega)).trans ?_
  unfold prodOf prodAll Cert.Spec.proj
  refine Finset.sum_congr rfl fun k _ => ?_
  have hk := k.isLt
  show x (ix2 n k) * shapeCast S1024x1024 T shapeCasts_S1024x64x16_S1024x1024 (ix2 k (⟨b.val * 16 + cc.val, by omega⟩ : Fin 1024)) = x (ix2 n k) * T (ix3 k b cc)
  rw [shapeCast_apply T shapeCasts_S1024x64x16_S1024x1024 (ix2 k (⟨b.val * 16 + cc.val, by omega⟩ : Fin 1024)) (ix3 k b cc) (by
    rw [Shape.rowMajor_val_three, Shape.rowMajor_val_two]
    show (k.val * 64 + b.val) * 16 + cc.val = k.val * 1024 + (b.val * 16 + cc.val)
    omega)]

/-- The joined block at (n, b) is the similarity o(n, b). -/
theorem outBlock_apply (x : FVec Ideal S512x1024 .f32) (T : FVec Ideal S1024x64x16 .f32) (n : Fin 512) (b : Fin 64) :
    outBlock x T (ix2 n b) = Cert.Spec.simil x T n b := by
  have hn := n.isLt
  have hb := b.isLt
  unfold outBlock
  refine (transpose_ix2_apply _ transposes_S64x512_S512x64_1_0 n b).trans ?_
  refine (shapeCast_apply _ shapeCasts_S64x1x512_S64x512 (ix2 b n) (ix3 b (0 : Fin 1) n) (by
    rw [Shape.rowMajor_val_three, Shape.rowMajor_val_two]
    show (b.val * 1 + (0 : Fin 1).val) * 512 + n.val = b.val * 512 + n.val
    simp)).trans ?_
  show distAt (headsOf x T) b n = _
  unfold distAt Cert.Spec.simil
  simp only [heads_apply, zero_sub]

end Cert.KernelIdeal.AtIndex

end
-- ==== Proof.RefIndex.lean ====
/-
  The reference, read at an index. Its 64 extra columns are, entry by entry, the specification's similarity: the
  product is read through its two reshapes as the projection M(n, b, c); the two broadcasts lay M(n, ·) against
  M(j, ·); the sum over the last axis is the L1 distance over channels, the sum over axis 1 the sum over samples j;
  both sums start from the zero word, which adds nothing.
-/
import proofs.«124866_j2035814498340_1_alg».proof.Proof.Gen.ReferenceIdeal.Read
import proofs.«124866_j2035814498340_1_alg».proof.Proof.Spec
import Idealize.ShloMosaic.PureOps.Ideal.Laws
import Idealize.ShloMosaic.Lib.ValueIdx

noncomputable section

namespace Cert.ReferenceIdeal.AtIndex

open Cert.ReferenceIdeal Cert.ReferenceIdeal.Gen Cert.ReferenceIdeal.Read
open Idealize.ShloMosaic Idealize.ShloMosaic.TcCoe Idealize.ShloMosaic.ValueIdx

/-- The reference's reshaped product at (n, b, c) is the projection M(n, b, c). -/
theorem ref_proj (x : (⟨S512x1024, .f32⟩ : BufTy).Contents (Elt Ideal)) (T : (⟨S1024x64x16, .f32⟩ : BufTy).Contents (Elt Ideal))
    (n : Fin 512) (b : Fin 64) (cc : Fin 16) :
    val_main_v2 (F := Ideal) x T (ix3 n b cc) = Cert.Spec.proj x T n b cc := by
  rw [val_main_v2_apply, val_main_v1_apply]
  unfold Cert.Spec.proj
  refine Finset.sum_congr rfl fun k _ => ?_
  rw [val_main_v0_apply]
  have hn := n.isLt
  have hb := b.isLt
  have hc := cc.isLt
  have hk := k.isLt
  have el : lidx_main_v1 (idx_main_v2 (ix3 n b cc)) k = ix2 n k := funext fun a => Fin.ext (by
    match a with
    | ⟨0, _⟩ => show ((n.val * 64 + b.val) * 16 + cc.val) / 1024 = n.val; omega
    | ⟨1, _⟩ => rfl)
  have er : idx_main_v0 (ridx_main_v1 (idx_main_v2 (ix3 n b cc)) k) = ix3 k b cc := funext fun a => Fin.ext (by
    match a with
    | ⟨0, _⟩ => show (k.val * 1024 + ((n.val * 64 + b.val) * 16 + cc.val) % 1024) / 1024 = k.val; omega
    | ⟨1, _⟩ => show (k.val * 1024 + ((n.val * 64 + b.val) * 16 + cc.val) % 1024) / 16 % 64 = b.val; omega
    | ⟨2, _⟩ => show (k.val * 1024 + ((n.val * 64 + b.val) * 16 + cc.val) % 1024) % 16 = cc.val; omega)
  rw [el, er]

/-- The reference's 64 extra columns at (n, b) are the similarity o(n, b). -/
theorem ref_out (x : (⟨S512x1024, .f32⟩ : BufTy).Contents (Elt Ideal)) (T : (⟨S1024x64x16, .f32⟩ : BufTy).Contents (Elt Ideal))
    (n : Fin 512) (b : Fin 64) :
    val_main_v14 (F := Ideal) x T (ix2 n b) = Cert.Spec.simil x T n b := by
  have e5 : ∀ (j : Fin 512) (cc : Fin 16), idx_main_v3 (idx_main_v5 (idx_main_v9 (idx_main_v12 (ix2 n b) j) cc)) = ix3 n b cc :=
    fun j cc => funext fun a => Fin.ext (by match a with | ⟨0, _⟩ => rfl | ⟨1, _⟩ => rfl | ⟨2, _⟩ => rfl)
  have e6 : ∀ (j : Fin 512) (cc : Fin 16), idx_main_v4 (idx_main_v6 (idx_main_v9 (idx_main_v12 (ix2 n b) j) cc)) = ix3 j b cc :=
    fun j cc => funext fun a => Fin.ext (by match a with | ⟨0, _⟩ => rfl | ⟨1, _⟩ => rfl | ⟨2, _⟩ => rfl)
  rw [val_main_v14_apply, val_main_v13_apply, val_main_cst_1_apply, val_main_v12_apply, val_main_cst_0_apply]
  unfold Cert.Spec.simil
  simp only [val_main_v11_apply, val_main_v10_apply, val_main_v9_apply, val_main_cst_apply, val_main_v8_apply, val_main_v7_apply,
    val_main_v5_apply, val_main_v6_apply, val_main_v3_apply, val_main_v4_apply, e5, e6, ref_proj,
    Ideal.subf_def, Ideal.hostUnary_exp_def, Ideal.hostNegf_def, Ideal.negf_def, Ideal.hostAbsf_def, Ideal.ofBits_def,
    Ideal.ofBits_zero_f32, zero_add]

end Cert.ReferenceIdeal.AtIndex

end
-- ==== Proof.lean ====
/-
  Minibatch discrimination: for samples x (512 × 1024) and a tensor T (1024 × 64 × 16) both programs return x with
  64 columns joined on,  o(n, b) = Σ_j exp(−Σ_c |M(n, b, c) − M(j, b, c)|) − 1  with  M(n, b, c) = Σ_k x(n, k) · T(k, b, c).
  The kernel computes M with a row-blocked matrix product (its operands' format changes are the identity on the
  extended reals) and o with one grid point per head b, adding the sixteen channels' absolute differences one after
  another onto zero and negating as 0 − a; the reference broadcasts M against itself, sums over the channel axis from
  zero, negates, and sums over the sample axis from zero. On the extended reals addition is associative and zero is
  neutral, and 0 − a = −a, so the two are one function of the arguments; no finiteness of the inputs is used.
  The two programs' runs end with their result arrays at that function (the kernel's from its two regions' blocks and
  its host operations read back; the reference's from its generated run read one operation at a time).
-/
import proofs.«124866_j2035814498340_1_alg».proof.Defs
import proofs.«124866_j2035814498340_1_alg».proof.Proof.Gen.Kernel
import proofs.«124866_j2035814498340_1_alg».proof.Proof.Gen.Kernel.Skeleton
import proofs.«124866_j2035814498340_1_alg».proof.Proof.Gen.Kernel.Launch
import proofs.«124866_j2035814498340_1_alg».proof.Proof.Gen.Kernel.Points
import proofs.«124866_j2035814498340_1_alg».proof.Proof.Gen.Kernel.Frame
import proofs.«124866_j2035814498340_1_alg».proof.Proof.Gen.KernelIdeal
import proofs.«124866_j2035814498340_1_alg».proof.Proof.Gen.KernelIdeal.Skeleton
import proofs.«124866_j2035814498340_1_alg».proof.Proof.Gen.KernelIdeal.Launch
import proofs.«124866_j2035814498340_1_alg».proof.Proof.Gen.KernelIdeal.Points
import proofs.«124866_j2035814498340_1_alg».proof.Proof.Gen.KernelIdeal.Frame
import proofs.«124866_j2035814498340_1_alg».proof.Proof.Gen.ReferenceIdeal
import proofs.«124866_j2035814498340_1_alg».proof.Proof.Gen.Pre_finite_inputs
import proofs.«124866_j2035814498340_1_alg».proof.Proof.Gen.ReferenceIdeal.Run
import proofs.«124866_j2035814498340_1_alg».proof.Proof.Gen.ReferenceIdeal.Read
import proofs.«124866_j2035814498340_1_alg».proof.Proof.KernelIndex
import proofs.«124866_j2035814498340_1_alg».proof.Proof.RefIndex
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel's joined block is the reference's 64 columns: both are the similarity o(n, b) at every (n, b). -/
theorem block_eq (x : FVec Ideal Cert.KernelIdeal.S512x1024 .f32) (T : FVec Ideal Cert.KernelIdeal.S1024x64x16 .f32) :
    Cert.KernelIdeal.Whole.outBlock x T = Cert.ReferenceIdeal.Read.val_main_v14 (F := Ideal) x T := by
  funext i
  obtain ⟨n, b, rfl⟩ : ∃ (n : Fin 512) (b : Fin 64), i = ix2 n b := ⟨i 0, i 1, eq_ix2 i⟩
  rw [Cert.KernelIdeal.AtIndex.outBlock_apply, Cert.ReferenceIdeal.AtIndex.ref_out]

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: there is nothing to preserve. -/
theorem preserves : Cert.preserves_Kernel_KernelIdeal := trivial

/-- From memories agreeing on the arguments both programs end with the first argument joined to the same block. -/
theorem algebraic : Cert.algebraic_KernelIdeal_ReferenceIdeal := by
  intro m ρ m' ρ' _ hagree
  refine ⟨_, Cert.KernelIdeal.Whole.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, (hagree c).1, (hagree c).2]
  unfold Cert.ReferenceIdeal.Read.val_main_v15
  rw [block_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
